-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S4x600000 : Shape := ⟨2, ![4, 600000]⟩
abbrev S64x128 : Shape := ⟨2, ![64, 128]⟩
abbrev S128x128 : Shape := ⟨2, ![128, 128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S2x50000x128 .f32) (main_arg1 : IVec S4x600000 32) (main_arg2 : FVec F S64x128 .f32) (main_arg3 : FVec F S128x128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S2x50000x128 : Shape := ⟨3, ![2, 50000, 128]⟩
abbrev S4x600000 : Shape := ⟨2, ![4, 600000]⟩
abbrev S64x128 : Shape := ⟨2, ![64, 128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x2 : Shape := ⟨2, ![600000, 2]⟩
abbrev S600000x128 : Shape := ⟨2, ![600000, 128]⟩
abbrev S6000x128 : Shape := ⟨2, ![6000, 128]⟩
abbrev S100000x128 : Shape := ⟨2, ![100000, 128]⟩
abbrev S100000 : Shape := ⟨1, ![100000]⟩
abbrev S2x50000x1 : Shape := ⟨3, ![2, 50000, 1]⟩

abbrev nBuf : Space → Nat
  | .hbm => 59
  | .vmem => 7
  | .smem => 0
  | _ => 0

abbrev bufTy : (tb : Table) → Fin (tcTables nBuf tb) → BufTy
  | .hbm, ⟨0, _⟩ => ⟨S2x50000x128, .f32⟩
  | .hbm, ⟨1, _⟩ => ⟨S4x600000, .i32⟩
  | .hbm, ⟨2, _⟩ => ⟨S64x128, .f32⟩
  | .hbm, ⟨3, _⟩ => ⟨S128x128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x1, .i32⟩
  | .hbm, ⟨28, _⟩ => ⟨S600000x2, .i32⟩
  | .hbm, ⟨29, _⟩ => ⟨S600000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S128x128, .f32⟩
  | .hbm, ⟨40, _⟩ => ⟨S600000x128, .f32⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S_, .f32⟩
  | .hbm, ⟨46, _⟩ => ⟨S100000x128, .f32⟩
  | .hbm, ⟨47, _⟩ => ⟨S600000x1, .i32⟩
  | .hbm, ⟨48, _⟩ => ⟨S100000x128, .f32⟩
  | .hbm, ⟨49, _⟩ => ⟨S_, .f32⟩
  | .hbm, ⟨50, _⟩ => ⟨S600000, .f32⟩
  | .hbm, ⟨51, _⟩ => ⟨S_, .f32⟩
  | .hbm, ⟨52, _⟩ => ⟨S100000, .f32⟩
  | .hbm, ⟨53, _⟩ => ⟨S600000x1, .i32⟩
  | .hbm, ⟨54, _⟩ => ⟨S100000, .f32⟩
  | .hbm, ⟨55, _⟩ => ⟨S2x50000x128, .f32⟩
  | .hbm, ⟨56, _⟩ => ⟨S2x50000x1, .f32⟩
  | .hbm, ⟨57, _⟩ => ⟨S2x50000x128, .f32⟩
  | .hbm, ⟨58, _⟩ => ⟨S2x50000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S128x128, .f32⟩
  | .local _ .vmem, ⟨5, _⟩ => ⟨S6000x128, .f32⟩
  | .local _ .vmem, ⟨6, _⟩ => ⟨S6000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4x600000_S1x600000_0_0 : S4x600000.Slices ![0, 0] S1x600000
  shapeCasts_S1x600000_S600000 : S1x600000.ShapeCasts S600000
  slices_S4x600000_S1x600000_1_0 : S4x600000.Slices ![1, 0] S1x600000
  slices_S4x600000_S1x600000_2_0 : S4x600000.Slices ![2, 0] S1x600000
  slices_S4x600000_S1x600000_3_0 : S4x600000.Slices ![3, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  transposes_S128x128_S128x128_1_0 : S128x128.Transposes [1, 0] S128x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  bcast_S_S100000 : S_.BroadcastsInDim S100000 (![] : Fin 0 → Fin S100000.rank)
  shapeCasts_S100000x128_S2x50000x128 : S100000x128.ShapeCasts S2x50000x128
  shapeCasts_S100000_S2x50000x1 : S100000.ShapeCasts S2x50000x1
  bcast_S2x50000x1_S2x50000x128_0_1_2 : S2x50000x1.BroadcastsInDim S2x50000x128 (![0, 1, 2] : Fin 3 → Fin S2x50000x128.rank)
  gather_S2x50000x128_S600000x2_S600000x128_1_01_n_n_01_1_11128_wf : GatherDims.WF S2x50000x128 S600000x2 S600000x128 [1] [0, 1] [] [0, 1] [] 1 ![1, 1, 128]
  gather_S64x128_S600000x1_S600000x128_1_0_n_n_0_1_1128_wf : GatherDims.WF S64x128 S600000x1 S600000x128 [1] [0] [] [0] [] 1 ![1, 128]
  dot_S6000x128_S128x128_S6000x128_1_0_0_1_n_n_wf : DotDims.WF S6000x128 S128x128 S6000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S600000x128.size a
  hwx0_3 : ∀ i : grid0.Coords, EltTy.bits .f32 = 32 ∨ (Rect.block (s := S600000x128) S6000x128.size (cc0_transform_3 i) (hinb0_3 i)).WholeWords (EltTy.packing .f32)

variable [Facts₀]

def gather_S2x50000x128_S600000x2_S600000x128_1_01_n_n_01_1_11128 : GatherDims S2x50000x128 S600000x2 S600000x128 where
  offsetDims := [1]
  collapsedSliceDims := [0, 1]
  operandBatchingDims := []
  startIndicesBatchingDims := []
  startIndexMap := [0, 1]
  indexVectorDim := 1
  sliceSizes := ![1, 1, 128]
  wf := gather_S2x50000x128_S600000x2_S600000x128_1_01_n_n_01_1_11128_wf
def gather_S64x128_S600000x1_S600000x128_1_0_n_n_0_1_1128 : GatherDims S64x128 S600000x1 S600000x128 where
  offsetDims := [1]
  collapsedSliceDims := [0]
  operandBatchingDims := []
  startIndicesBatchingDims := []
  startIndexMap := [0]
  indexVectorDim := 1
  sliceSizes := ![1, 128]
  wf := gather_S64x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

abbrev win0_0 : Pipeline.Window sig grid0 :=
  Pipeline.Window.ofSpec (Memref.whole main_v21) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S6000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x50000x128 : Shape := ⟨3, ![2, 50000, 128]⟩
abbrev S4x600000 : Shape := ⟨2, ![4, 600000]⟩
abbrev S64x128 : Shape := ⟨2, ![64, 128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x2 : Shape := ⟨2, ![600000, 2]⟩
abbrev S600000x128 : Shape := ⟨2, ![600000, 128]⟩
abbrev S100000x128 : Shape := ⟨2, ![100000, 128]⟩
abbrev S100000 : Shape := ⟨1, ![100000]⟩
abbrev S2x50000x1 : Shape := ⟨3, ![2, 50000, 1]⟩

abbrev nBuf : Space → Nat
  | .hbm => 60
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S4x600000, .i32⟩
  | .hbm, ⟨2, _⟩ => ⟨S64x128, .f32⟩
  | .hbm, ⟨3, _⟩ => ⟨S128x128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x1, .i32⟩
  | .hbm, ⟨28, _⟩ => ⟨S600000x2, .i32⟩
  | .hbm, ⟨29, _⟩ => ⟨S600000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x128, .f32⟩
  | .hbm, ⟨40, _⟩ => ⟨S128x128, .f32⟩
  | .hbm, ⟨41, _⟩ => ⟨S600000x128, .f32⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S_, .f32⟩
  | .hbm, ⟨47, _⟩ => ⟨S100000x128, .f32⟩
  | .hbm, ⟨48, _⟩ => ⟨S600000x1, .i32⟩
  | .hbm, ⟨49, _⟩ => ⟨S100000x128, .f32⟩
  | .hbm, ⟨50, _⟩ => ⟨S_, .f32⟩
  | .hbm, ⟨51, _⟩ => ⟨S600000, .f32⟩
  | .hbm, ⟨52, _⟩ => ⟨S_, .f32⟩
  | .hbm, ⟨53, _⟩ => ⟨S100000, .f32⟩
  | .hbm, ⟨54, _⟩ => ⟨S600000x1, .i32⟩
  | .hbm, ⟨55, _⟩ => ⟨S100000, .f32⟩
  | .hbm, ⟨56, _⟩ => ⟨S2x50000x128, .f32⟩
  | .hbm, ⟨57, _⟩ => ⟨S2x50000x1, .f32⟩
  | .hbm, ⟨58, _⟩ => ⟨S2x50000x128, .f32⟩
  | .hbm, ⟨59, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  slices_S4x600000_S1x600000_0_0 : S4x600000.Slices ![0, 0] S1x600000
  shapeCasts_S1x600000_S600000 : S1x600000.ShapeCasts S600000
  slices_S4x600000_S1x600000_1_0 : S4x600000.Slices ![1, 0] S1x600000
  slices_S4x600000_S1x600000_2_0 : S4x600000.Slices ![2, 0] S1x600000
  slices_S4x600000_S1x600000_3_0 : S4x600000.Slices ![3, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  transposes_S128x128_S128x128_1_0 : S128x128.Transposes [1, 0] S128x128
  bcast_S_S100000x128 : S_.BroadcastsInDim S100000x128 (![] : Fin 0 → Fin S100000x128.rank)
  bcast_S_S100000 : S_.BroadcastsInDim S100000 (![] : Fin 0 → Fin S100000.rank)
  shapeCasts_S100000x128_S2x50000x128 : S100000x128.ShapeCasts S2x50000x128
  shapeCasts_S100000_S2x50000x1 : S100000.ShapeCasts S2x50000x1
  bcast_S2x50000x1_S2x50000x128_0_1_2 : S2x50000x1.BroadcastsInDim S2x50000x128 (![0, 1, 2] : Fin 3 → Fin S2x50000x128.rank)
  gather_S2x50000x128_S600000x2_S600000x128_1_01_n_n_01_1_11128_wf : GatherDims.WF S2x50000x128 S600000x2 S600000x128 [1] [0, 1] [] [0, 1] [] 1 ![1, 1, 128]
  gather_S64x128_S600000x1_S600000x128_1_0_n_n_0_1_1128_wf : GatherDims.WF S64x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1

variable [Facts₀]

def gather_S2x50000x128_S600000x2_S600000x128_1_01_n_n_01_1_11128 : GatherDims S2x50000x128 S600000x2 S600000x128 where
  offsetDims := [1]
  collapsedSliceDims := [0, 1]
  operandBatchingDims := []
  startIndicesBatchingDims := []
  startIndexMap := [0, 1]
  indexVectorDim := 1
  sliceSizes := ![1, 1, 128]
  wf := gather_S2x50000x128_S600000x2_S600000x128_1_01_n_n_01_1_11128_wf
def gather_S64x128_S600000x1_S600000x128_1_0_n_n_0_1_1128 : GatherDims S64x128 S600000x1 S600000x128 where
  offsetDims := [1]
  collapsedSliceDims := [0]
  operandBatchingDims := []
  startIndicesBatchingDims := []
  startIndexMap := [0]
  indexVectorDim := 1
  sliceSizes := ![1, 128]
  wf := gather_S64x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

class Facts : Prop extends Facts₀ where

variable [Facts]
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.TileProduct.lean ====
/-
  What one tile of the kernel stores.

  The body subtracts the relation tile from the node tile, narrows both the difference and the weight to bf16 (the
  identity on extended reals), and multiplies into a zero accumulator. Entry (p, q) of the stored tile is therefore
  the sum over k of (x0 (p, k) − x1 (p, k)) · x2 (k, q).
-/
import proofs.«157289_j24412594110749_1_alg».proof.Proof.Gen.KernelIdeal.Skeleton
import proofs.«157289_j24412594110749_1_alg».proof.Proof.LibDense
import Idealize.ShloMosaic.Lib.Pipeline.Value

noncomputable section

namespace Cert.KernelIdeal.Tile

open Idealize.ShloMosaic Idealize.ShloMosaic.ValueIdx Cert.KernelIdeal Cert.KernelIdeal.Gen

/-- The stored tile at row p, column q. -/
theorem pay_apply (x0 x1 : Vec Ideal S6000x128 .f32) (x2 : Vec Ideal S128x128 .f32) (p : Fin 6000) (q : Fin 128) :
    k0_pay1 (F := Ideal) x0 x1 x2 (ix2 p q) = ∑ k : Fin 128, (x0 (ix2 p k) - x1 (ix2 p k)) * x2 (ix2 k q) := by
  unfold k0_pay1
  rw [shapeCast_self, shapeCast_self, shapeCast_self]
  exact Cert.LibDense.matmul_zero_apply dot_S6000x128_S128x128_S6000x128_1_0_0_1_n_n none rfl rfl rfl rfl rfl rfl _ _ p q

end Cert.KernelIdeal.Tile

end
-- ==== Proof.EdgeProjection.lean ====
/-
  The per-edge projection as one function of whole arrays.

  For gathered node rows A, gathered relation rows B (both E × 128) and the transposed weight Wt (128 × 128),
  edge e's projected row has entry q equal to the sum over k of (A (e, k) − B (e, k)) · Wt (k, q). Both programs
  compute exactly this array over the extended reals: one 6000-row tile at a time on one side, as a single
  general dot on the other.
-/
import Idealize.ShloMosaic.PureOps.Ideal
import Idealize.ShloMosaic.Lib.ValueIdx

noncomputable section

namespace Cert.EdgeProjection

open Idealize.ShloMosaic Idealize.ShloMosaic.ValueIdx

/-- Entry (e, q) of the projected edge messages: the difference row of edge e against column q of Wt. -/
def projected {E : ℕ} (A B : FVec Ideal ⟨2, ![E, 128]⟩ .f32) (Wt : FVec Ideal ⟨2, ![128, 128]⟩ .f32) :
    FVec Ideal ⟨2, ![E, 128]⟩ .f32 :=
  fun i => ∑ k : Fin 128, (A (ix2 (i 0) k) - B (ix2 (i 0) k)) * Wt (ix2 k (i 1))

theorem projected_apply {E : ℕ} (A B : FVec Ideal ⟨2, ![E, 128]⟩ .f32) (Wt : FVec Ideal ⟨2, ![128, 128]⟩ .f32)
    (p : Fin E) (q : Fin 128) :
    projected A B Wt (ix2 p q) = ∑ k : Fin 128, (A (ix2 p k) - B (ix2 p k)) * Wt (ix2 k q) := rfl

end Cert.EdgeProjection

end
-- ==== Proof.EdgeMessages.lean ====
/-
  The array the kernel region leaves: the per-edge projection of the arrays it was launched on.

  Grid point t handles edges 6000·t … 6000·t + 5999: it is handed rows 6000·t … of both gathered arrays and the
  whole transposed weight, and writes back rows 6000·t … of the output. Row p of its tile is therefore row
  6000·t + p of the projection, and the hundred tiles cover all 600000 rows.
-/
import proofs.«157289_j24412594110749_1_alg».proof.Proof.Gen.KernelIdeal.Frame
import proofs.«157289_j24412594110749_1_alg».proof.Proof.TileProduct
import proofs.«157289_j24412594110749_1_alg».proof.Proof.EdgeProjection
import Idealize.ShloMosaic.Lib.Pipeline.Value

set_option maxRecDepth 16384

noncomputable section

namespace Cert.KernelIdeal.Messages

open Idealize.ShloMosaic Idealize.ShloMosaic.TcCoe Idealize.ShloMosaic.ValueIdx Idealize.SL.Sem
open Cert.KernelIdeal Cert.KernelIdeal.Gen Cert.EdgeProjection
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: the two edge inputs and the output sit at row block t, column block 0;
    the weight always at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 100 := lt_of_lt_of_eq t.isLt N_0

/-- Row p of point t's tile is row 6000·t + p of the array. -/
abbrev edgeRow (t : Fin cfg0.N) (p : Fin 6000) : Fin 600000 :=
  ⟨t.val * 6000 + p.val, by have := point_lt t; have := p.isLt; omega⟩

/-- The node tile at point t is rows 6000·t … of the gathered node array. -/
theorem node_read (c : Dev nD) (t : Fin cfg0.N) (p : Fin 6000) (k : Fin 128) :
    iblk m c 0 t (ix2 p k) = V m c main_v21 (ix2 (edgeRow t p) k) := by
  obtain ⟨e00, e01, -⟩ := idx_facts t
  show V m c main_v21 (((cfg0.win 0).blk t).view.emb (ix2 p k)) = V m c main_v21 (ix2 (edgeRow t p) k)
  refine congrArg _ ?_
  funext a; apply Fin.ext
  match a with
  | ⟨0, _⟩ => show win0_0.index t (0 : Fin 2) * 6000 + 1 * p.val = t.val * 6000 + p.val; omega
  | ⟨1, _⟩ => show win0_0.index t (1 : Fin 2) * 128 + 1 * k.val = k.val; omega

/-- The relation tile at point t is rows 6000·t … of the gathered relation array. -/
theorem rel_read (c : Dev nD) (t : Fin cfg0.N) (p : Fin 6000) (k : Fin 128) :
    iblk m c 1 t (ix2 p k) = V m c main_v28 (ix2 (edgeRow t p) k) := by
  obtain ⟨-, -, e10, e11, -⟩ := idx_facts t
  show V m c main_v28 (((cfg0.win 1).blk t).view.emb (ix2 p k)) = V m c main_v28 (ix2 (edgeRow t p) k)
  refine congrArg _ ?_
  funext a; apply Fin.ext
  match a with
  | ⟨0, _⟩ => show win0_1.index t (0 : Fin 2) * 6000 + 1 * p.val = t.val * 6000 + p.val; omega
  | ⟨1, _⟩ => show win0_1.index t (1 : Fin 2) * 128 + 1 * k.val = k.val; omega

/-- The weight tile at every point is the whole transposed weight. -/
theorem weight_read (c : Dev nD) (t : Fin cfg0.N) (k q : Fin 128) :
    iblk m c 2 t (ix2 k q) = V m c main_v29 (ix2 k q) := by
  obtain ⟨-, -, -, -, e20, e21, -⟩ := idx_facts t
  show V m c main_v29 (((cfg0.win 2).blk t).view.emb (ix2 k q)) = V m c main_v29 (ix2 k q)
  refine congrArg _ ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- Where the output tile's entry (p, q) lands in the array. -/
theorem out_emb (t : Fin cfg0.N) (p : Fin 6000) (q : Fin 128) :
    ((cfg0.win 3).blk t).view.emb (ix2 p q) = ix2 (edgeRow t p) q := by
  obtain ⟨-, -, -, -, -, -, e30, e31⟩ := idx_facts t
  funext a; apply Fin.ext
  match a with
  | ⟨0, _⟩ => show win0_3.index t (0 : Fin 2) * 6000 + 1 * p.val = t.val * 6000 + p.val; omega
  | ⟨1, _⟩ => show win0_3.index t (1 : Fin 2) * 128 + 1 * q.val = q.val; omega

/-- What point t writes back is tile t of the projection of the launched arrays. -/
theorem flushed_eq (c : Dev nD) (t : Fin cfg0.N) :
    (dats m 0 c).flushed 3 t = ((cfg0.win 3).blk t).view.read (Elt Ideal)
      (projected (E := 600000) (V m c main_v21) (V m c main_v28) (V m c main_v29)) := by
  show (cfg0.win 3).cut (grid0.coords t) ((dats m 0 c).after 3 t) = _
  rw [after0_3]
  unfold out0_3
  rw [View.canon_unit_zero hz]
  simp only [View.ld_unit_zero (S := S6000x128) hz, View.ld_unit_zero (S := S128x128) hz]
  funext j
  obtain ⟨p, q, rfl⟩ : ∃ (p : Fin 6000) (q : Fin 128), j = ix2 p q := ⟨j 0, j 1, eq_ix2 j⟩
  refine (Cert.KernelIdeal.Tile.pay_apply (iblk m c 0 t) (iblk m c 1 t) (iblk m c 2 t) p q).trans ?_
  rw [View.read_apply, out_emb, projected_apply]
  refine Finset.sum_congr rfl fun k _ => ?_
  rw [node_read, rel_read, weight_read]

/-- An index of the array is in point t's tile iff each coordinate is in the tile's range on its axis. -/
theorem mem_blk (t : Fin cfg0.N) (i : S600000x128.Idx) :
    i ∈ ((cfg0.win 3).blk t).view.set ↔ ∀ a : Fin 2, win0_3.index t a * S6000x128.size a ≤ (i a).val ∧ (i a).val < win0_3.index t a * S6000x128.size a + S6000x128.size a := by
  show i ∈ ((View.whole main_v30).slice (win0_3.rect t)).set ↔ _
  rw [View.set_slice_whole, Rect.mem_set_unit]
  exact Iff.rfl

/-- Edge e lies in the tile of point e / 6000. -/
theorem cover (i : S600000x128.Idx) :
    ∃ t : Fin cfg0.N, (cfg0.win 3).flush t = true ∧ i ∈ ((cfg0.win 3).blk t).view.set := by
  have hi0 : (i 0).val < 600000 := (i 0).isLt
  have hi1 : (i 1).val < 128 := (i 1).isLt
  have ht : (i 0).val / 6000 < cfg0.N := lt_of_lt_of_eq (by omega : (i 0).val / 6000 < 100) N_0.symm
  obtain ⟨-, -, -, -, -, -, e30, e31⟩ := idx_facts ⟨(i 0).val / 6000, ht⟩
  have e30' : win0_3.index ⟨(i 0).val / 6000, ht⟩ (0 : Fin 2) = (i 0).val / 6000 := e30
  refine ⟨⟨(i 0).val / 6000, ht⟩, flush0_3 _, ?_⟩
  rw [mem_blk]
  intro a
  match a with
  | ⟨0, _⟩ => show win0_3.index ⟨(i 0).val / 6000, ht⟩ (0 : Fin 2) * 6000 ≤ (i 0).val ∧ (i 0).val < win0_3.index ⟨(i 0).val / 6000, ht⟩ (0 : Fin 2) * 6000 + 6000; omega
  | ⟨1, _⟩ => show win0_3.index ⟨(i 0).val / 6000, ht⟩ (1 : Fin 2) * 128 ≤ (i 1).val ∧ (i 1).val < win0_3.index ⟨(i 0).val / 6000, ht⟩ (1 : Fin 2) * 128 + 128; omega

/-- After the region the output array holds the projection of the arrays the region was launched on. -/
theorem final (c : Dev nD) :
    (dats m 0 c).arrAt 3 cfg0.N = projected (E := 600000) (V m c main_v21) (V m c main_v28) (V m c main_v29) :=
  (dats m 0 c).arrAt_eq_of_cover 3 _ (fun t _ => flushed_eq m c t) cover

end Cert.KernelIdeal.Messages

end
-- ==== Proof.SegmentMean.lean ====
/-
  The host chain both programs end with: the mean of the edge messages over each (batch, target) slot.

  Edge e goes to slot b(e)·50000 + tgt(e). Both programs scatter-add the messages and a column of ones into
  zeros over the 100000 slots (updates with a slot out of range are dropped), view the sums as
  2 × 50000 × 128 and the counts as 2 × 50000 × 1, and divide. The chain is carried as one function of the two
  index rows and of the message array, and is never opened.
-/
import proofs.«157289_j24412594110749_1_alg».proof.Proof.Gen.ReferenceIdeal
import Idealize.ShloMosaic.PureOps.Ideal

noncomputable section

namespace Cert.SegmentMean

open Idealize.ShloMosaic Cert.ReferenceIdeal Cert.ReferenceIdeal.Gen

/-- The slot of each edge, b·50000 + tgt, as a column of scatter indices. -/
def slots (b tgt : (⟨S600000, .i32⟩ : BufTy).Contents (Elt Ideal)) : (⟨S600000x1, .i32⟩ : BufTy).Contents (Elt Ideal) :=
  broadcastInDim S600000x1 ![0] bcast_S600000_S600000x1_0
    (addi (muli b (broadcastInDim S600000 ![] bcast_S_S600000 (constantI S_ 32 50000#32))) tgt)

/-- Per-slot sums of the messages divided by per-slot edge counts. -/
def segmentMean (b tgt : (⟨S600000, .i32⟩ : BufTy).Contents (Elt Ideal))
    (msgs : (⟨S600000x128, .f32⟩ : BufTy).Contents (Elt Ideal)) : (⟨S2x50000x128, .f32⟩ : BufTy).Contents (Elt Ideal) :=
  Host.divf
    (shapeCast _ (Host.scatterAdd scatter_S100000x128_S600000x1_S600000x128_1_0_0_1
      (broadcastInDim S100000x128 ![] bcast_S_S100000x128 (constant (F := Ideal) S_ .f32 0x00000000#32))
      (slots b tgt) msgs) shapeCasts_S100000x128_S2x50000x128)
    (broadcastInDim S2x50000x128 ![0, 1, 2] bcast_S2x50000x1_S2x50000x128_0_1_2
      (shapeCast _ (Host.scatterAdd scatter_S100000_S600000x1_S600000_n_0_0_1
        (broadcastInDim S100000 ![] bcast_S_S100000 (constant (F := Ideal) S_ .f32 0x00000000#32))
        (slots b tgt)
        (broadcastInDim S600000 ![] bcast_S_S600000 (constant (F := Ideal) S_ .f32 0x3F800000#32))) shapeCasts_S100000_S2x50000x1))

end Cert.SegmentMean

end
-- ==== Proof.KernelResult.lean ====
/-
  The kernel program's result, as a function of its four arguments.

  Before the region the host slices the four index rows, wraps negative indices and gathers the node and relation
  rows; the region leaves the per-edge projection of those gathered arrays (EdgeMessages); after the region the host
  takes the per-slot mean. Each stretch of host operations is read back as the composed term of its operations, and
  the terms before the region are named by the stage functions of the reference, to which they are literally equal.
-/
import proofs.«157289_j24412594110749_1_alg».proof.Proof.Gen.KernelIdeal.Frame
import proofs.«157289_j24412594110749_1_alg».proof.Proof.Gen.ReferenceIdeal.Read
import proofs.«157289_j24412594110749_1_alg».proof.Proof.EdgeMessages
import proofs.«157289_j24412594110749_1_alg».proof.Proof.SegmentMean
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen
open Cert.EdgeProjection Cert.SegmentMean
open Cert.ReferenceIdeal.Read (val_main_v1 val_main_v3 val_main_v21 val_main_v28 val_main_v30)

variable (m : (ℓ : Loc nD τ sig) → Buf (Elt Ideal) ℓ) (ρ : Dev nD → PrngReg)

/-! ## What the region is launched on -/

/-- The batch row of the edge list. -/
theorem entry_batch (c : Dev nD) :
    V m c main_v1 = val_main_v1 (F := Ideal) (m ((c : Thread nD τ).loc main_arg1)) := by
  show StableHlo.after hostOps0 (fun b => m (c, b)) (Proc.devRef .tc main_v1) = _
  after_results
  rfl

/-- The target row of the edge list. -/
theorem entry_target (c : Dev nD) :
    V m c main_v3 = val_main_v3 (F := Ideal) (m ((c : Thread nD τ).loc main_arg1)) := by
  show StableHlo.after hostOps0 (fun b => m (c, b)) (Proc.devRef .tc main_v3) = _
  after_results
  rfl

set_option maxHeartbeats 2000000 in
/-- The gathered node rows. -/
theorem entry_nodes (c : Dev nD) :
    V m c main_v21 = val_main_v21 (F := Ideal) (m ((c : Thread nD τ).loc main_arg0)) (m ((c : Thread nD τ).loc main_arg1)) := by
  show StableHlo.after hostOps0 (fun b => m (c, b)) (Proc.devRef .tc main_v21) = _
  after_results_simp
  rfl

set_option maxHeartbeats 2000000 in
/-- The gathered relation rows. -/
theorem entry_rels (c : Dev nD) :
    V m c main_v28 = val_main_v28 (F := Ideal) (m ((c : Thread nD τ).loc main_arg1)) (m ((c : Thread nD τ).loc main_arg2)) := by
  show StableHlo.after hostOps0 (fun b => m (c, b)) (Proc.devRef .tc main_v28) = _
  after_results_simp
  rfl

/-- The transposed weight. -/
theorem entry_weight (c : Dev nD) :
    V m c main_v29 = val_main_v30 (F := Ideal) (m ((c : Thread nD τ).loc main_arg3)) := by
  show StableHlo.after hostOps0 (fun b => m (c, b)) (Proc.devRef .tc main_v29) = _
  after_results
  rfl

/-! ## The host chain after the region -/

set_option maxHeartbeats 2000000 in
/-- The program's result is the per-slot mean of the array the region leaves, over the batch and target rows. -/
theorem tail_eq (c : Dev nD) :
    Pipeline.afterTail₀ cfgs (dats m) 0 (V0 m) [hostOps1] c main_v44
      = segmentMean (V m c main_v1) (V m c main_v3) ((dats m 0 c).arrAt 3 cfg0.N) := by
  unfold Pipeline.afterTail₀
  show StableHlo.after hostOps1 _ (Proc.devRef .tc main_v44) = _
  after_results_simp
  rw [Pipeline.withArrays_arr spec0 launch0.win.arr_inj c _ _ 3,
    Pipeline.withArrays_of_ne _ c (V0 m c) _ main_v1 (by exact (by decide : ∀ w, Pipeline.arrRef spec0 w ≠ main_v1)),
    Pipeline.withArrays_of_ne _ c (V0 m c) _ main_v3 (by exact (by decide : ∀ w, Pipeline.arrRef spec0 w ≠ main_v3))]
  rfl

/-- The result as a function of the four arguments. -/
def result (c : Dev nD) : (⟨S2x50000x128, .f32⟩ : BufTy).Contents (Elt Ideal) :=
  segmentMean (val_main_v1 (F := Ideal) (m ((c : Thread nD τ).loc main_arg1))) (val_main_v3 (F := Ideal) (m ((c : Thread nD τ).loc main_arg1)))
    (projected (E := 600000)
      (val_main_v21 (F := Ideal) (m ((c : Thread nD τ).loc main_arg0)) (m ((c : Thread nD τ).loc main_arg1)))
      (val_main_v28 (F := Ideal) (m ((c : Thread nD τ).loc main_arg1)) (m ((c : Thread nD τ).loc main_arg2)))
      (val_main_v30 (F := Ideal) (m ((c : Thread nD τ).loc main_arg3))))

theorem tail_result (c : Dev nD) :
    Pipeline.afterTail₀ cfgs (dats m) 0 (V0 m) [hostOps1] c main_v44 = result m c := by
  rw [tail_eq, Cert.KernelIdeal.Messages.final, entry_batch, entry_target, entry_nodes, entry_rels, entry_weight]
  rfl

/-! ## The run -/

/-- Every weakly fair execution ends with the result at the per-slot mean of the projected messages and the
    arguments as launched. -/
theorem run : θ_run defs (onTc (τ := τ) (main (F := Ideal))) ⟨m, fun _ => 0, ρ⟩ fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v44 (Pipeline.mem_restRefs_of main_v44 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefProjection.lean ====
/-
  The reference's general dot is the per-edge projection.

  The reference subtracts the two gathered arrays on the host and contracts the difference's axis 1 with the
  transposed weight's axis 0: entry (e, q) is the sum over k of (A (e, k) − B (e, k)) · Wt (k, q).
-/
import proofs.«157289_j24412594110749_1_alg».proof.Proof.Gen.ReferenceIdeal.Read
import proofs.«157289_j24412594110749_1_alg».proof.Proof.LibDense
import proofs.«157289_j24412594110749_1_alg».proof.Proof.EdgeProjection

noncomputable section

namespace Cert.ReferenceIdeal.Stage

open Idealize.ShloMosaic Idealize.ShloMosaic.ValueIdx Cert.ReferenceIdeal Cert.ReferenceIdeal.Gen Cert.ReferenceIdeal.Read
open Cert.EdgeProjection

/-- The product stage, as the projection of the two gather stages and the transpose stage. -/
theorem product_eq (x0 : Vec Ideal S2x50000x128 .f32) (x1 : Vec Ideal S4x600000 .i32) (x2 : Vec Ideal S64x128 .f32)
    (x3 : Vec Ideal S128x128 .f32) :
    val_main_v31 (F := Ideal) x0 x1 x2 x3
      = projected (val_main_v21 (F := Ideal) x0 x1) (val_main_v28 (F := Ideal) x1 x2) (val_main_v30 (F := Ideal) x3) := by
  unfold val_main_v31 val_main_v29
  generalize val_main_v21 (F := Ideal) x0 x1 = A
  generalize val_main_v28 (F := Ideal) x1 x2 = B
  generalize val_main_v30 (F := Ideal) x3 = Wt
  funext i
  obtain ⟨p, q, rfl⟩ : ∃ (p : Fin 600000) (q : Fin 128), i = ix2 p q := ⟨i 0, i 1, eq_ix2 i⟩
  simp only [Host.dotGeneral]
  rw [projected_apply]
  exact Cert.LibDense.dotGeneral_apply dot_S600000x128_S128x128_S600000x128_1_0_0_1_n_n none _ rfl rfl rfl rfl rfl rfl (subf A B) Wt p q

end Cert.ReferenceIdeal.Stage

end
-- ==== Proof.ReferenceResult.lean ====
/-
  The reference program's result, as the per-slot mean of the projected messages.

  The reference's last stage divides the reshaped scatter-add of the product stage by the broadcast reshaped counts:
  that is the shared host chain applied to the batch row, the target row and the product stage, and the product
  stage is the per-edge projection (RefProjection).
-/
import proofs.«157289_j24412594110749_1_alg».proof.Proof.Gen.ReferenceIdeal.Read
import proofs.«157289_j24412594110749_1_alg».proof.Proof.RefProjection
import proofs.«157289_j24412594110749_1_alg».proof.Proof.SegmentMean

noncomputable section

namespace Cert.ReferenceIdeal.Result

open Idealize.ShloMosaic Cert.ReferenceIdeal Cert.ReferenceIdeal.Gen Cert.ReferenceIdeal.Read
open Cert.EdgeProjection Cert.SegmentMean

/-- The last stage is the shared chain over the product stage. -/
theorem last_stage (x0 : (⟨S2x50000x128, .f32⟩ : BufTy).Contents (Elt Ideal)) (x1 : (⟨S4x600000, .i32⟩ : BufTy).Contents (Elt Ideal))
    (x2 : (⟨S64x128, .f32⟩ : BufTy).Contents (Elt Ideal)) (x3 : (⟨S128x128, .f32⟩ : BufTy).Contents (Elt Ideal)) :
    val_main_v45 (F := Ideal) x0 x1 x2 x3
      = segmentMean (val_main_v1 (F := Ideal) x1) (val_main_v3 (F := Ideal) x1) (val_main_v31 (F := Ideal) x0 x1 x2 x3) := by
  simp only [val_main_v45, val_main_v42, val_main_v37, val_main_v44, val_main_v43, val_main_v41, val_main_v40, val_main_v39,
    val_main_v38, val_main_v36, val_main_v35, val_main_v34, val_main_v33, val_main_v32, val_main_cst, val_main_cst_6,
    val_main_cst_7, val_main_c_5, segmentMean, slots]

/-- The reference's result over the projection of its gather stages. -/
theorem result_eq (x0 : (⟨S2x50000x128, .f32⟩ : BufTy).Contents (Elt Ideal)) (x1 : (⟨S4x600000, .i32⟩ : BufTy).Contents (Elt Ideal))
    (x2 : (⟨S64x128, .f32⟩ : BufTy).Contents (Elt Ideal)) (x3 : (⟨S128x128, .f32⟩ : BufTy).Contents (Elt Ideal)) :
    val_main_v45 (F := Ideal) x0 x1 x2 x3
      = segmentMean (val_main_v1 (F := Ideal) x1) (val_main_v3 (F := Ideal) x1)
          (projected (E := 600000) (val_main_v21 (F := Ideal) x0 x1) (val_main_v28 (F := Ideal) x1 x2) (val_main_v30 (F := Ideal) x3)) := by
  rw [last_stage, Cert.ReferenceIdeal.Stage.product_eq]

end Cert.ReferenceIdeal.Result

end
-- ==== Proof.lean ====
/-
  Relation-aware node update: gather node and relation rows per edge, project their difference through the weight,
  and average the projected messages over each (batch, target) slot.

  Both programs gather the same rows with the same host operations and end with the same per-slot mean. Between
  the two, the kernel program multiplies the difference by the transposed weight one 6000-edge tile at a time, with
  both factors narrowed to bf16 on the way into the product, where the reference contracts the whole difference with
  the transposed weight in one general dot. Over the extended reals narrowing is the identity and either product's
  entry (e, q) is the sum over k of (A (e, k) − B (e, k)) · Wt (k, q), so the message arrays coincide entry by entry
  and the shared mean is applied to equal arguments. No law beyond reading both products as that sum is used, so
  finiteness of the inputs is never opened.
-/
import proofs.«157289_j24412594110749_1_alg».proof.Defs
import proofs.«157289_j24412594110749_1_alg».proof.Proof.Gen.Kernel
import proofs.«157289_j24412594110749_1_alg».proof.Proof.Gen.Kernel.Frame
import proofs.«157289_j24412594110749_1_alg».proof.Proof.Gen.KernelIdeal
import proofs.«157289_j24412594110749_1_alg».proof.Proof.Gen.KernelIdeal.Frame
import proofs.«157289_j24412594110749_1_alg».proof.Proof.Gen.ReferenceIdeal
import proofs.«157289_j24412594110749_1_alg».proof.Proof.Gen.ReferenceIdeal.Run
import proofs.«157289_j24412594110749_1_alg».proof.Proof.Gen.ReferenceIdeal.Read
import proofs.«157289_j24412594110749_1_alg».proof.Proof.Gen.Pre_finite_inputs
import proofs.«157289_j24412594110749_1_alg».proof.Proof.KernelResult
import proofs.«157289_j24412594110749_1_alg».proof.Proof.ReferenceResult

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the per-slot mean of the projected messages of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.Result.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
